-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S1024x32000 : Shape := ⟨2, ![1024, 32000]⟩
abbrev S2048x1024 : Shape := ⟨2, ![2048, 1024]⟩
abbrev S_ : Shape := ⟨0, ![]⟩

class Facts : Prop where
  bcast_S_S1024x32000 : S_.BroadcastsInDim S1024x32000 (![] : Fin 0 → Fin S1024x32000.rank)
  reducesTo_S1024x32000_S_d0_1 : S1024x32000.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : IVec S2x2048 32) (main_arg1 : FVec F S1024x32000 .f32) (main_arg2 : FVec F S2048x1024 .f32) : IVec S_ 1 :=
  let main_v0 : FVec F S1024x32000 .f32 := Host.absf main_arg1
  let main_cst : FVec F S_ .f32 := constant S_ .f32 0x7F800000#32
  let main_v1 : FVec F S1024x32000 .f32 := broadcastInDim S1024x32000 ![] bcast_S_S1024x32000 main_cst
  let main_v2 : IVec S1024x32000 1 := cmpf .olt main_v0 main_v1
  let main_c : IVec S_ 1 := constantI S_ 1 1#1
  let main_v3 : IVec S_ 1 := (fun x v => Host.reduce IntOp.andi x v reducesTo_S1024x32000_S_d0_1 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2x2048 : Shape := ⟨2, ![2, 2048]⟩
abbrev S1024x32000 : Shape := ⟨2, ![1024, 32000]⟩
abbrev S2048x1024 : Shape := ⟨2, ![2048, 1024]⟩
abbrev S4096x1 : Shape := ⟨2, ![4096, 1]⟩
abbrev S32000x1024 : Shape := ⟨2, ![32000, 1024]⟩
abbrev S4096x1024 : Shape := ⟨2, ![4096, 1024]⟩
abbrev S1024x1 : Shape := ⟨2, ![1024, 1]⟩
abbrev S1280x1024 : Shape := ⟨2, ![1280, 1024]⟩
abbrev S1024x1024 : Shape := ⟨2, ![1024, 1024]⟩
abbrev S1x1280 : Shape := ⟨2, ![1, 1280]⟩
abbrev S1024x1280 : Shape := ⟨2, ![1024, 1280]⟩
abbrev S2x2048x1024 : Shape := ⟨3, ![2, 2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x2048, .i32⟩
  | .hbm, ⟨1, _⟩ => ⟨S1024x32000, .f32⟩
  | .hbm, ⟨2, _⟩ => ⟨S2048x1024, .f32⟩
  | .hbm, ⟨3, _⟩ => ⟨S4096x1, .i32⟩
  | .hbm, ⟨4, _⟩ => ⟨S32000x1024, .f32⟩
  | .hbm, ⟨5, _⟩ => ⟨S32000x1024, .bf16⟩
  | .hbm, ⟨6, _⟩ => ⟨S4096x1024, .f32⟩
  | .hbm, ⟨7, _⟩ => ⟨S2x2048x1024, .f32⟩
  | .local _ .vmem, ⟨0, _⟩ => ⟨S1024x1, .i32⟩
  | .local _ .vmem, ⟨1, _⟩ => ⟨S1024x1, .i32⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x2048_S4096x1 : S2x2048.ShapeCasts S4096x1
  transposes_S1024x32000_S32000x1024_1_0 : S1024x32000.Transposes [1, 0] S32000x1024
  bitsLt_bf16_f32 : FTy.bits .bf16 < FTy.bits .f32
  iota_S1x1280_d1_w32 : S1x1280.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1280 : S1024x1.Broadcasts S1024x1280
  broadcasts_S1x1280_S1024x1280 : S1x1280.Broadcasts S1024x1280
  natLt_1_32 : 1 < 32
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .bf16 = 32 ∨ (Rect.block (s := S32000x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .f32 = 32 ∨ (Rect.block (s := S2048x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)

variable [Facts₀]

def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048 : Shape := ⟨2, ![2, 2048]⟩
abbrev S1024x32000 : Shape := ⟨2, ![1024, 32000]⟩
abbrev S2048x1024 : Shape := ⟨2, ![2048, 1024]⟩
abbrev S2x2048x1 : Shape := ⟨3, ![2, 2048, 1]⟩
abbrev S1x1x32000 : Shape := ⟨3, ![1, 1, 32000]⟩
abbrev S2x2048x32000 : Shape := ⟨3, ![2, 2048, 32000]⟩
abbrev S2x2048x1024 : Shape := ⟨3, ![2, 2048, 1024]⟩
abbrev S1x2048x1024 : Shape := ⟨3, ![1, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S1024x32000, .f32⟩
  | .hbm, ⟨2, _⟩ => ⟨S2048x1024, .f32⟩
  | .hbm, ⟨3, _⟩ => ⟨S2x2048x1, .i32⟩
  | .hbm, ⟨4, _⟩ => ⟨S1x1x32000, .i32⟩
  | .hbm, ⟨5, _⟩ => ⟨S2x2048x32000, .i32⟩
  | .hbm, ⟨6, _⟩ => ⟨S2x2048x32000, .i32⟩
  | .hbm, ⟨7, _⟩ => ⟨S2x2048x32000, .i1⟩
  | .hbm, ⟨8, _⟩ => ⟨S2x2048x32000, .f32⟩
  | .hbm, ⟨9, _⟩ => ⟨S2x2048x1024, .f32⟩
  | .hbm, ⟨10, _⟩ => ⟨S1x2048x1024, .f32⟩
  | .hbm, ⟨11, _⟩ => ⟨S2x2048x1024, .f32⟩
  | .hbm, ⟨12, _⟩ => ⟨S2x2048x1024, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S2x2048x1_S2x2048x32000_0_1_2 : S2x2048x1.BroadcastsInDim S2x2048x32000 (![0, 1, 2] : Fin 3 → Fin S2x2048x32000.rank)
  bcast_S1x1x32000_S2x2048x32000_0_1_2 : S1x1x32000.BroadcastsInDim S2x2048x32000 (![0, 1, 2] : Fin 3 → Fin S2x2048x32000.rank)
  bcast_S2048x1024_S1x2048x1024_1_2 : S2048x1024.BroadcastsInDim S1x2048x1024 (![1, 2] : Fin 2 → Fin S1x2048x1024.rank)
  bcast_S1x2048x1024_S2x2048x1024_0_1_2 : S1x2048x1024.BroadcastsInDim S2x2048x1024 (![0, 1, 2] : Fin 3 → Fin S2x2048x1024.rank)
  dot_S2x2048x32000_S1024x32000_S2x2048x1024_2_1_01_0_n_n_wf : DotDims.WF S2x2048x32000 S1024x32000 S2x2048x1024 [2] [1] [0, 1] [0] [] []

variable [Facts₀]

def dot_S2x2048x32000_S1024x32000_S2x2048x1024_2_1_01_0_n_n : DotDims S2x2048x32000 S1024x32000 S2x2048x1024 where
  lhsContracting := [2]
  rhsContracting := [1]
  lhsNonContracting := [0, 1]
  rhsNonContracting := [0]
  lhsBatch := []
  rhsBatch := []
  wf := dot_S2x2048x32000_S1024x32000_S2x2048x1024_2_1_01_0_n_n_wf

class Facts : Prop extends Facts₀ where

variable [Facts]
-- ==== Proof.Pieces.lean ====
/-
  What each control case of the kernel body leaves in the output's staging buffer, as a value.

  The body computes one payload: the buffer's running contents plus the product of the tile's one-hot rows
  (token id against the tile's 1280 vocabulary ids) with the tile of the transposed embedding table. At the
  first vocabulary tile of a row tile (case A) the positional block is first stored into the buffer and read back,
  so the running contents ARE the positional block; at every later tile (case B) they are what the tile before
  left. Both cases therefore leave the same payload, at different accumulators.
-/
import proofs.«422639_j88270167867496_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Embed

open Cert.KernelIdeal Cert.KernelIdeal.Gen

variable {F : FTy → Type} [FloatOps F]

theorem offs_zero : (![0, 0] : Fin 2 → Nat) = fun _ => 0 := funext fun a => by fin_cases a <;> rfl

/-- Case B (a later vocabulary tile): the one covering store writes the payload over the running contents. -/
theorem out_B (c : Dev nD) (i : grid0.Coords) (a2 : Memref sig .tc .vmem S1024x1 .i32) (h2 : a2.IsWhole)
    (a3 : Memref sig .tc .vmem S1280x1024 .bf16) (h3 : a3.IsWhole) (a4 : Memref sig .tc .vmem S1024x1024 .f32) (h4 : a4.IsWhole)
    (a5 : Memref sig .tc .vmem S1024x1024 .f32) (h5 : a5.IsWhole) (hc : ¬cond0_0 i)
    (x0 : Vec F S1024x1 .i32) (x1 : Vec F S1280x1024 .bf16) (x2 : Vec F S1024x1024 .f32) (xo : Vec F S1024x1024 .f32) :
    out0_B_3 c i a2 h2 a3 h3 a4 h4 a5 h5 hc x0 x1 x2 xo = k0_pay1 i x0 x1 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero offs_zero]
  simp only [View.readAt_eq_ld, h2.read_unread, h3.read_unread, h5.read_unread, View.ld_unit_zero (S := S1024x1) offs_zero,
    View.ld_unit_zero (S := S1280x1024) offs_zero, View.ld_unit_zero (S := S1024x1024) offs_zero]

/-- Case A (the first vocabulary tile of a row tile): the positional block is stored, read back, and the payload
    written over it, so the payload's accumulator is the positional block. -/
theorem out_A (c : Dev nD) (i : grid0.Coords) (a2 : Memref sig .tc .vmem S1024x1 .i32) (h2 : a2.IsWhole)
    (a3 : Memref sig .tc .vmem S1280x1024 .bf16) (h3 : a3.IsWhole) (a4 : Memref sig .tc .vmem S1024x1024 .f32) (h4 : a4.IsWhole)
    (a5 : Memref sig .tc .vmem S1024x1024 .f32) (h5 : a5.IsWhole) (hc : cond0_0 i)
    (x0 : Vec F S1024x1 .i32) (x1 : Vec F S1280x1024 .bf16) (x2 : Vec F S1024x1024 .f32) :
    out0_A_3 c i a2 h2 a3 h3 a4 h4 a5 h5 hc x0 x1 x2 = k0_pay1 i x0 x1 x2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1024x1024) offs_zero, View.readCov_unit_zero (S := S1024x1024) _ offs_zero]
  simp only [View.readAt_eq_ld, h2.read_unread, h3.read_unread, h4.read_unread, View.ld_unit_zero (S := S1024x1) offs_zero,
    View.ld_unit_zero (S := S1280x1024) offs_zero, View.ld_unit_zero (S := S1024x1024) offs_zero]

end Cert.KernelIdeal.Embed

end
-- ==== Proof.OneHot.lean ====
/-
  One entry of a one-hot row over the extended reals: `1` where the token id is the vocabulary id, `0` elsewhere.
  The kernel makes it by widening the comparison bit to a word and converting the word as a signed integer; the
  reference converts the comparison bit itself as an unsigned integer. Both are this entry.
-/
import Idealize.ShloMosaic.PureOps.Ideal
import Idealize.ShloMosaic.PureOps.Ideal.Laws

noncomputable section

namespace Cert.Embed

open Idealize.ShloMosaic

/-- The one-hot entry: is the token id `a` the vocabulary id `b`? -/
def hot (a b : BitVec 32) : EReal := if a = b then 1 else 0

/-- The kernel's entry: the comparison bit, zero-extended to 32 bits, read as a signed integer. -/
theorem hot_of_sitofp_extui (a b : BitVec 32) :
    (FloatOps.sitofp (F := Ideal) .f32 ((IntOp.cmpi .eq a b).setWidth 32) : EReal) = hot a b := by
  show (((((IntOp.cmpi .eq a b).setWidth 32).toInt : ℝ)) : EReal) = _
  unfold hot IntOp.cmpi
  by_cases h : a = b
  · subst h; simp
  · have hb : (a == b) = false := by simpa using h
    simp [hb, h]

/-- The reference's entry: the comparison bit read as an unsigned integer. -/
theorem hot_of_uitofp (a b : BitVec 32) :
    (FloatOps.uitofp (F := Ideal) .f32 (IntOp.cmpi .eq a b) : EReal) = hot a b := by
  show ((((IntOp.cmpi .eq a b).toNat : ℝ)) : EReal) = _
  unfold hot IntOp.cmpi
  by_cases h : a = b
  · subst h; simp
  · have hb : (a == b) = false := by simpa using h
    simp [hb, h]

end Cert.Embed

end
-- ==== Proof.Payload.lean ====
/-
  The kernel body's payload read at one entry, over the extended reals.

  At row `p` and column `q` of the 1024 × 1024 output block the payload is the accumulator's entry plus the sum, over
  the 1280 vocabulary ids `j` of the tile, of the one-hot entry (row `p`'s token id against the tile's `j`-th vocabulary
  id, which is `j` plus 1280 times the tile's number) times the transposed table's entry at `(j, q)`. The two changes
  of float format (the one-hot rows and the table are handed to the product as bf16) are the identity on the
  extended reals, and the product into a zero accumulator is the plain sum.
-/
import proofs.«422639_j88270167867496_3_alg».proof.Proof.Gen.KernelIdeal.Skeleton
import proofs.«422639_j88270167867496_3_alg».proof.Proof.OneHot
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Embed

open Cert.KernelIdeal Cert.KernelIdeal.Gen Cert.Embed

/-- The tile's `j`-th vocabulary id as the kernel forms it: the lane number plus the tile's offset, in 32-bit words. -/
abbrev vocabId (i : grid0.Coords) (j : Fin 1280) : BitVec 32 :=
  BitVec.ofNat 32 j.val + BitVec.ofNat 32 (i 1).val * 1280#32

/-! The product's operand indices at output entry `y` and contraction index `k`: row `y 0`, lane `k` on the left;
    lane `k`, column `y 1` on the right. -/

theorem lhs_row (y : S1024x1024.Idx) (k : dot_S1024x1280_S1280x1024_S1024x1024_1_0_0_1_n_n.contr.Idx) :
    (dot_S1024x1280_S1280x1024_S1024x1024_1_0_0_1_n_n.lhsIdx y k 0).val = (y 0).val := by
  unfold DotDims.lhsIdx
  rw [dif_neg (show ¬(0 : Fin S1024x1280.rank) ∈ dot_S1024x1280_S1280x1024_S1024x1024_1_0_0_1_n_n.lhsBatch by decide), dif_pos (show (0 : Fin S1024x1280.rank) ∈ dot_S1024x1280_S1280x1024_S1024x1024_1_0_0_1_n_n.lhsNonContracting by decide)]
  rfl
theorem lhs_lane (y : S1024x1024.Idx) (k : dot_S1024x1280_S1280x1024_S1024x1024_1_0_0_1_n_n.contr.Idx) :
    (dot_S1024x1280_S1280x1024_S1024x1024_1_0_0_1_n_n.lhsIdx y k 1).val = (k ⟨0, by decide⟩).val :=
  dot_S1024x1280_S1280x1024_S1024x1024_1_0_0_1_n_n.lhsIdx_val_of_single rfl y k
theorem rhs_lane (y : S1024x1024.Idx) (k : dot_S1024x1280_S1280x1024_S1024x1024_1_0_0_1_n_n.contr.Idx) :
    (dot_S1024x1280_S1280x1024_S1024x1024_1_0_0_1_n_n.rhsIdx y k 0).val = (k ⟨0, by decide⟩).val :=
  dot_S1024x1280_S1280x1024_S1024x1024_1_0_0_1_n_n.rhsIdx_val_of_single rfl y k
theorem rhs_col (y : S1024x1024.Idx) (k : dot_S1024x1280_S1280x1024_S1024x1024_1_0_0_1_n_n.contr.Idx) :
    (dot_S1024x1280_S1280x1024_S1024x1024_1_0_0_1_n_n.rhsIdx y k 1).val = (y 1).val := by
  unfold DotDims.rhsIdx
  rw [dif_neg (show ¬(1 : Fin S1280x1024.rank) ∈ dot_S1024x1280_S1280x1024_S1024x1024_1_0_0_1_n_n.rhsBatch by decide), dif_pos (show (1 : Fin S1280x1024.rank) ∈ dot_S1024x1280_S1280x1024_S1024x1024_1_0_0_1_n_n.rhsNonContracting by decide)]
  rfl

/-- The product of a 1024 × 1280 by a 1280 × 1024 vector into the zero block, at `(p, q)`: the sum over the lanes. -/
theorem matmul_entry (l : FVec Ideal S1024x1280 .bf16) (r : FVec Ideal S1280x1024 .bf16) (p q : Fin 1024) :
    matmul dot_S1024x1280_S1280x1024_S1024x1024_1_0_0_1_n_n none l r (constant S1024x1024 .f32 0x00000000#32) (ix2 p q)
      = ∑ j : Fin 1280, l (ix2 p j) * r (ix2 j q) := by
  simp only [matmul]
  rw [Ideal.matmul_constant_zero_apply, ← Equiv.sum_comp (ValueIdx.contrEquiv1 dot_S1024x1280_S1280x1024_S1024x1024_1_0_0_1_n_n 1280 rfl rfl).symm]
  refine Finset.sum_congr rfl fun k _ => ?_
  have hk := ValueIdx.contrEquiv1_symm_val dot_S1024x1280_S1280x1024_S1024x1024_1_0_0_1_n_n 1280 rfl rfl k
  have el : dot_S1024x1280_S1280x1024_S1024x1024_1_0_0_1_n_n.lhsIdx (ix2 p q) ((ValueIdx.contrEquiv1 dot_S1024x1280_S1280x1024_S1024x1024_1_0_0_1_n_n 1280 rfl rfl).symm k) = ix2 p k := funext fun a => Fin.ext (by
    match a with
    | ⟨0, _⟩ => exact lhs_row _ _
    | ⟨1, _⟩ => exact (lhs_lane _ _).trans hk)
  have er : dot_S1024x1280_S1280x1024_S1024x1024_1_0_0_1_n_n.rhsIdx (ix2 p q) ((ValueIdx.contrEquiv1 dot_S1024x1280_S1280x1024_S1024x1024_1_0_0_1_n_n 1280 rfl rfl).symm k) = ix2 k q := funext fun a => Fin.ext (by
    match a with
    | ⟨0, _⟩ => exact (rhs_lane _ _).trans hk
    | ⟨1, _⟩ => exact rhs_col _ _)
  rw [el, er]

/-- Row `p`'s token id, broadcast along the lanes. -/
theorem tok_bcast (v : IVec S1024x1 32) (p : Fin 1024) (j : Fin 1280) :
    broadcastTo S1024x1280 v broadcasts_S1024x1_S1024x1280 (ix2 p j) = v (ix2 p 0) :=
  broadcastTo_apply v broadcasts_S1024x1_S1024x1280 (ix2 p j) (ix2 p 0) (fun a => match a with
    | ⟨0, _⟩ => by show p.val = if (1024 : Nat) = 1 then 0 else p.val; rw [if_neg (by decide)]
    | ⟨1, _⟩ => by show 0 = if (1 : Nat) = 1 then 0 else j.val; rw [if_pos rfl])

/-- Lane `j`'s vocabulary id, broadcast along the rows. -/
theorem voc_bcast (v : IVec S1x1280 32) (p : Fin 1024) (j : Fin 1280) :
    broadcastTo S1024x1280 v broadcasts_S1x1280_S1024x1280 (ix2 p j) = v (ix2 0 j) :=
  broadcastTo_apply v broadcasts_S1x1280_S1024x1280 (ix2 p j) (ix2 0 j) (fun a => match a with
    | ⟨0, _⟩ => by show 0 = if (1 : Nat) = 1 then 0 else p.val; rw [if_pos rfl]
    | ⟨1, _⟩ => by show j.val = if (1280 : Nat) = 1 then 0 else j.val; rw [if_neg (by decide)])

/-- THE PAYLOAD AT AN ENTRY. -/
theorem pay_apply (i : grid0.Coords) (v4 : Vec Ideal S1024x1 .i32) (v12 : Vec Ideal S1280x1024 .bf16)
    (v18 : Vec Ideal S1024x1024 .f32) (p q : Fin 1024) :
    k0_pay1 (F := Ideal) i v4 v12 v18 (ix2 p q)
      = v18 (ix2 p q) + ∑ j : Fin 1280, hot (v4 (ix2 p 0)) (vocabId i j) * v12 (ix2 j q) := by
  unfold k0_pay1
  dsimp only
  rw [addf_apply, shapeCast_self, matmul_entry]
  refine congrArg (v18 (ix2 p q) + ·) (Finset.sum_congr rfl fun j _ => ?_)
  rw [shapeCast_self, truncf_apply, sitofp_apply, extui_apply, shapeCast_self]
  show FloatOps.sitofp (F := Ideal) .f32 ((IntOp.cmpi .eq (broadcastTo S1024x1280 v4 broadcasts_S1024x1_S1024x1280 (ix2 p j))
      (broadcastTo S1024x1280 (addi (iota .tc S1x1280 32 [1] iota_S1x1280_d1_w32)
        (broadcast S1x1280 (Scalar.muli (BitVec.ofNat 32 (i 1).val) 1280#32))) broadcasts_S1x1280_S1024x1280 (ix2 p j))).setWidth 32) * _ = _
  rw [tok_bcast, voc_bcast, hot_of_sitofp_extui]
  show hot _ (IntOp.addi (iota .tc S1x1280 32 [1] iota_S1x1280_d1_w32 (ix2 0 j)) (Scalar.muli (BitVec.ofNat 32 (i 1).val) 1280#32)) * _ = _
  rw [iota_single_apply]
  rfl

end Cert.KernelIdeal.Embed

end
-- ==== Proof.Blocks.lean ====
/-
  The arrays the pallas_call stages, as the host operations before it leave them, and each window's block at a grid
  point read at an entry.

  The grid is 4 row tiles by 25 vocabulary tiles, point `t` being row tile `t / 25` and vocabulary tile `t % 25`. The
  token column (4096 × 1: the tokens flattened) is read 1024 rows at a time at row tile `t / 25`; the transposed table
  (32000 × 1024) 1280 rows at a time at vocabulary tile `t % 25`; the positional table (2048 × 1024) 1024 rows at a
  time at block `(t / 25) % 2`, a row tile lying inside one batch row.
-/
import proofs.«422639_j88270167867496_3_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.ValueIdx

namespace Cert.KernelIdeal.Embed

open Cert.KernelIdeal Cert.KernelIdeal.Gen

variable {F : FTy → Type} [FloatOps F]
variable (m : (ℓ : Loc nD τ sig) → Buf (Elt F) ℓ)

/-- The staged arrays at the region's entry, at their literal types. -/
abbrev tokarr (c : Dev nD) : Vec F S4096x1 .i32 := V m c main_v0
abbrev wetarr (c : Dev nD) : Vec F S32000x1024 .bf16 := V m c main_v2
abbrev wparr (c : Dev nD) : Vec F S2048x1024 .f32 := V m c main_arg2
/-- The input windows' blocks at a point, at their literal types. -/
abbrev tokblk (c : Dev nD) (t : Fin cfg0.N) : Vec F S1024x1 .i32 := iblk m c 0 t
abbrev wetblk (c : Dev nD) (t : Fin cfg0.N) : Vec F S1280x1024 .bf16 := iblk m c 1 t
abbrev wpblk (c : Dev nD) (t : Fin cfg0.N) : Vec F S1024x1024 .f32 := iblk m c 2 t

/-- The windows' block indices and the body's vocabulary-tile coordinate, at every grid point (decided over the grid). -/
theorem grid_facts : ∀ t : Fin cfg0.N,
    win0_0.index t 0 = t.val / 25 ∧ win0_0.index t 1 = 0 ∧ win0_1.index t 0 = t.val % 25 ∧ win0_1.index t 1 = 0
    ∧ win0_2.index t 0 = t.val / 25 % 2 ∧ win0_2.index t 1 = 0 ∧ win0_3.index t 0 = t.val / 25 ∧ win0_3.index t 1 = 0
    ∧ (grid0.coords t 1).val = t.val % 25 :=
  (by decide +kernel : ∀ t : Fin grid0.N,
    win0_0.index t 0 = t.val / 25 ∧ win0_0.index t 1 = 0 ∧ win0_1.index t 0 = t.val % 25 ∧ win0_1.index t 1 = 0
    ∧ win0_2.index t 0 = t.val / 25 % 2 ∧ win0_2.index t 1 = 0 ∧ win0_3.index t 0 = t.val / 25 ∧ win0_3.index t 1 = 0
    ∧ (grid0.coords t 1).val = t.val % 25)

theorem t_lt (t : Fin cfg0.N) : t.val < 100 := lt_of_lt_of_eq t.isLt (show cfg0.N = 100 from N_0)

/-- Row `p` of the token block at point `t` is row `1024 · (t / 25) + p` of the token column. -/
theorem tokblk_apply (c : Dev nD) (t : Fin cfg0.N) (p : Fin 1024) (r : Fin 4096) (hr : r.val = 1024 * (t.val / 25) + p.val) :
    tokblk m c t (ix2 p 0) = tokarr m c (ix2 r 0) := by
  show iblk m c 0 t (ix2 p 0) = _
  unfold iblk
  rw [View.read_apply]
  show V m c main_v0 _ = V m c main_v0 _
  congr 1
  funext a
  apply Fin.ext
  match a with
  | ⟨0, _⟩ => show win0_0.index t 0 * 1024 + 1 * p.val = r.val; rw [(grid_facts t).1, hr]; omega
  | ⟨1, _⟩ => show win0_0.index t 1 * 1 + 1 * 0 = 0; rw [(grid_facts t).2.1]

/-- Entry `(j, q)` of the table block at point `t` is entry `(1280 · (t % 25) + j, q)` of the transposed table. -/
theorem wetblk_apply (c : Dev nD) (t : Fin cfg0.N) (j : Fin 1280) (q : Fin 1024) (v : Fin 32000) (hv : v.val = 1280 * (t.val % 25) + j.val) :
    wetblk m c t (ix2 j q) = wetarr m c (ix2 v q) := by
  show iblk m c 1 t (ix2 j q) = _
  unfold iblk
  rw [View.read_apply]
  show V m c main_v2 _ = V m c main_v2 _
  congr 1
  funext a
  apply Fin.ext
  match a with
  | ⟨0, _⟩ => show win0_1.index t 0 * 1280 + 1 * j.val = v.val; rw [(grid_facts t).2.2.1, hv]; omega
  | ⟨1, _⟩ => show win0_1.index t 1 * 1024 + 1 * q.val = q.val; rw [(grid_facts t).2.2.2.1]; omega

/-- Entry `(p, q)` of the positional block at point `t` is entry `(1024 · ((t / 25) % 2) + p, q)` of the positional table. -/
theorem wpblk_apply (c : Dev nD) (t : Fin cfg0.N) (p q : Fin 1024) (s : Fin 2048) (hs : s.val = 1024 * (t.val / 25 % 2) + p.val) :
    wpblk m c t (ix2 p q) = wparr m c (ix2 s q) := by
  show iblk m c 2 t (ix2 p q) = _
  unfold iblk
  rw [View.read_apply]
  show V m c main_arg2 _ = V m c main_arg2 _
  congr 1
  funext a
  apply Fin.ext
  match a with
  | ⟨0, _⟩ => show win0_2.index t 0 * 1024 + 1 * p.val = s.val; rw [(grid_facts t).2.2.2.2.1, hs]; omega
  | ⟨1, _⟩ => show win0_2.index t 1 * 1024 + 1 * q.val = q.val; rw [(grid_facts t).2.2.2.2.2.1]; omega

/-! ## The host operations before the region -/

/-- The token column is the tokens reshaped. -/
theorem tokarr_eq (c : Dev nD) :
    tokarr m c = shapeCast S4096x1 (m ((c : Thread nD τ).loc main_arg0)) shapeCasts_S2x2048_S4096x1 := by
  show StableHlo.after hostOps0 (fun b => m (c, b)) (Proc.devRef .tc main_v0) = _
  after_results
  rfl

/-- The staged table is the embedding table transposed (its change of float format is the identity at the
    extended reals, and is kept as the operation it is at any other values). -/
theorem wetarr_eq (c : Dev nD) :
    wetarr m c = truncf .bf16 (transpose S32000x1024 [1, 0] (m ((c : Thread nD τ).loc main_arg1)) transposes_S1024x32000_S32000x1024_1_0) bitsLt_bf16_f32 := by
  show StableHlo.after hostOps0 (fun b => m (c, b)) (Proc.devRef .tc main_v2) = _
  after_results

/-- The positional table is staged as launched. -/
theorem wparr_eq (c : Dev nD) : wparr m c = m ((c : Thread nD τ).loc main_arg2) := V_main_arg2 m c

end Cert.KernelIdeal.Embed

end
-- ==== Proof.SumBlocks.lean ====
/-
  A sum over the first `B * A` naturals, taken `A` consecutive blocks of `B` at a time: the regrouping that joins
  a vocabulary sum accumulated tile by tile with the same sum taken whole. It holds in every commutative monoid,
  so on the extended reals it needs no finiteness.
-/
import Mathlib.Algebra.BigOperators.Group.Finset.Basic
import Mathlib.Algebra.BigOperators.Fin

namespace Cert.Embed

open Finset

/-- `∑_{s < A} ∑_{j < B} f (B·s + j) = ∑_{v < B·A} f v`. -/
theorem sum_range_blocks {β : Type*} [AddCommMonoid β] (f : ℕ → β) (B : ℕ) :
    ∀ A : ℕ, ∑ s ∈ range A, ∑ j ∈ range B, f (B * s + j) = ∑ v ∈ range (B * A), f v
  | 0 => by simp
  | A + 1 => by
    rw [sum_range_succ, sum_range_blocks f B A, Nat.mul_succ, sum_range_add]

end Cert.Embed
-- ==== Proof.Fold.lean ====
/-
  What the output's staging buffer holds when a row tile is written back, over the extended reals.

  Along the 25 vocabulary tiles of one row tile the buffer is reset to the positional block plus the first tile's
  product and then has each later tile's product added: a fold whose value at the last tile is the positional block
  plus the sum of the 25 addends. Each addend is a sum over the tile's 1280 vocabulary ids; 25 consecutive blocks of
  1280 are the 32000 ids, so the buffer's entry `(p, q)` ends at the positional entry plus the whole vocabulary sum
  of one-hot entry times table entry — a regrouping of a sum, which holds on the extended reals as in any commutative
  monoid.
-/
import proofs.«422639_j88270167867496_3_alg».proof.Proof.Pieces
import proofs.«422639_j88270167867496_3_alg».proof.Proof.Payload
import proofs.«422639_j88270167867496_3_alg».proof.Proof.Blocks
import proofs.«422639_j88270167867496_3_alg».proof.Proof.SumBlocks

noncomputable section

open Idealize.ShloMosaic Idealize.ShloMosaic.TcCoe Idealize.SL.Sem
open Idealize.ShloMosaic.ValueIdx

namespace Cert.KernelIdeal.Embed

open Cert.KernelIdeal Cert.KernelIdeal.Gen Cert.Embed

variable (m : (ℓ : Loc nD τ sig) → Buf (Elt Ideal) ℓ)

/-- The tile's `j`-th vocabulary id is the id `1280 · k + j` (no 32-bit wrap is involved in the equation itself). -/
theorem vocab_eq (k j : ℕ) : BitVec.ofNat 32 j + BitVec.ofNat 32 k * 1280#32 = BitVec.ofNat 32 (1280 * k + j) := by
  apply BitVec.eq_of_toNat_eq
  simp only [BitVec.toNat_add, BitVec.toNat_mul, BitVec.toNat_ofNat]
  omega

/-- One term of the vocabulary sum at row `r` of the token column and column `q`: the one-hot entry at vocabulary id `v`
    times the transposed table's entry `(v, q)`; zero past the vocabulary, so that it is a function of every natural. -/
def term (c : Dev nD) (r : Fin 4096) (q : Fin 1024) (v : ℕ) : EReal :=
  if h : v < 32000 then hot (tokarr m c (ix2 r 0)) (BitVec.ofNat 32 v) * wetarr m c (ix2 ⟨v, h⟩ q) else 0

/-- What point `n` adds to the buffer (zero past the grid). -/
def addend (c : Dev nD) (n : ℕ) (y : S1024x1024.Idx) : EReal :=
  if h : n < cfg0.N then
    ∑ j : Fin 1280, hot (tokblk m c ⟨n, h⟩ (ix2 (y 0) 0)) (vocabId (grid0.coords ⟨n, h⟩) j) * wetblk m c ⟨n, h⟩ (ix2 j (y 1))
  else 0

/-- Point `n`'s addend at `(p, q)` is the block of 1280 consecutive terms of row `1024 · (n / 25) + p` that starts at
    vocabulary id `1280 · (n % 25)`. -/
theorem addend_eq (c : Dev nD) (n : ℕ) (hn : n < 100) (p q : Fin 1024) (r : Fin 4096) (hr : r.val = 1024 * (n / 25) + p.val) :
    addend m c n (ix2 p q) = ∑ j ∈ Finset.range 1280, term m c r q (1280 * (n % 25) + j) := by
  have h : n < cfg0.N := lt_of_lt_of_eq hn (show 100 = cfg0.N from N_0.symm)
  unfold addend
  rw [dif_pos h, Finset.sum_range]
  refine Finset.sum_congr rfl fun j _ => ?_
  have hv : 1280 * (n % 25) + j.val < 32000 := by have := j.isLt; omega
  show hot (tokblk m c ⟨n, h⟩ (ix2 p 0)) (vocabId (grid0.coords ⟨n, h⟩) j) * wetblk m c ⟨n, h⟩ (ix2 j q) = _
  rw [tokblk_apply m c ⟨n, h⟩ p r hr, wetblk_apply m c ⟨n, h⟩ j q ⟨1280 * (n % 25) + j.val, hv⟩ rfl]
  unfold term
  rw [dif_pos hv]
  show hot _ (BitVec.ofNat 32 j.val + BitVec.ofNat 32 (grid0.coords ⟨n, h⟩ 1).val * 1280#32) * _ = _
  rw [(grid_facts ⟨n, h⟩).2.2.2.2.2.2.2.2, vocab_eq]

/-- The buffer at a reset point, and the step at a later one: the payload over the positional block, over what the
    point before left. -/
def resetAt (c : Dev nD) : (n : ℕ) → n < cfg0.N → S1024x1024.Idx → EReal := fun n h =>
  k0_pay1 (F := Ideal) (grid0.coords ⟨n, h⟩) (tokblk m c ⟨n, h⟩) (wetblk m c ⟨n, h⟩) (wpblk m c ⟨n, h⟩)
def stepAt (c : Dev nD) : (n : ℕ) → n < cfg0.N → (S1024x1024.Idx → EReal) → S1024x1024.Idx → EReal := fun n h acc =>
  k0_pay1 (F := Ideal) (grid0.coords ⟨n, h⟩) (tokblk m c ⟨n, h⟩) (wetblk m c ⟨n, h⟩) acc

theorem outs_reset (c : Dev nD) (n : ℕ) (h : n < cfg0.N) (e : n % 25 = 0) : outsAt0 m c n h = resetAt m c n h :=
  (outsAt0_A m c ⟨n, h⟩ e).trans
    (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) ((hcond0_0 ⟨n, h⟩).mpr e) (iblk m c 0 ⟨n, h⟩) (iblk m c 1 ⟨n, h⟩) (iblk m c 2 ⟨n, h⟩))

theorem outs_step (c : Dev nD) (n : ℕ) (h : n + 1 < cfg0.N) (e : ¬(n + 1) % 25 = 0) :
    outsAt0 m c (n + 1) h = stepAt m c (n + 1) h (outsAt0 m c n (Nat.lt_of_succ_lt h)) :=
  (outsAt0_B m c ⟨n + 1, h⟩ e).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => e ((hcond0_0 ⟨n + 1, h⟩).mp h'))
      (iblk m c 0 ⟨n + 1, h⟩) (iblk m c 1 ⟨n + 1, h⟩) (iblk m c 2 ⟨n + 1, h⟩) (outsAt0 m c n (Nat.lt_of_succ_lt h)))

/-- The payload splits at every entry into its accumulator's entry and the point's addend. -/
theorem reset_apply (c : Dev nD) (n : ℕ) (h : n < cfg0.N) (y : S1024x1024.Idx) :
    resetAt m c n h y = wpblk m c ⟨n, h⟩ y + addend m c n y := by
  obtain ⟨p, q, rfl⟩ : ∃ (p q : Fin 1024), y = ix2 p q := ⟨y 0, y 1, eq_ix2 y⟩
  unfold resetAt addend
  rw [dif_pos h, pay_apply]
theorem step_apply (c : Dev nD) (n : ℕ) (h : n < cfg0.N) (acc : S1024x1024.Idx → EReal) (y : S1024x1024.Idx) :
    stepAt m c n h acc y = acc y + addend m c n y := by
  obtain ⟨p, q, rfl⟩ : ∃ (p q : Fin 1024), y = ix2 p q := ⟨y 0, y 1, eq_ix2 y⟩
  unfold stepAt addend
  rw [dif_pos h, pay_apply]

/-- THE BUFFER AT THE WRITE-BACK: at the last vocabulary tile of a row tile, entry `(p, q)` is the positional entry of
    the tile's row plus the whole vocabulary sum at that row. -/
theorem outs_flush (c : Dev nD) (t : Fin cfg0.N) (ht : t.val % 25 = 24) (p q : Fin 1024) (r : Fin 4096)
    (hr : r.val = 1024 * (t.val / 25) + p.val) (s : Fin 2048) (hs : s.val = 1024 * (t.val / 25 % 2) + p.val) :
    outsAt0 m c t.val t.isLt (ix2 p q)
      = wparr m c (ix2 s q) + ∑ v : Fin 32000, hot (tokarr m c (ix2 r 0)) (BitVec.ofNat 32 v.val) * wetarr m c (ix2 v q) := by
  have hN : t.val < 100 := t_lt t
  have hNe : cfg0.N = 100 := N_0
  have hb : 25 * (t.val / 25) + t.val % 25 < cfg0.N := by rw [Nat.div_add_mod]; exact t.isLt
  have hb0 : 25 * (t.val / 25) < cfg0.N := by omega
  rw [Pipeline.eq_accAt_of_mod (outsAt0 m c) 25 (resetAt m c) (stepAt m c) (outs_reset m c) (outs_step m c) (by decide) t.val t.isLt hb,
    Pipeline.accAt_add_apply (resetAt m c) (stepAt m c) (wpblk m c ⟨25 * (t.val / 25), hb0⟩) (addend m c) (25 * (t.val / 25)) 24
      (fun h y => reset_apply m c _ h y) (fun n h acc y _ _ => step_apply m c n h acc y) (t.val % 25) (by omega) hb (ix2 p q)]
  have e1 : wpblk m c ⟨25 * (t.val / 25), hb0⟩ (ix2 p q) = wparr m c (ix2 s q) :=
    wpblk_apply m c ⟨25 * (t.val / 25), hb0⟩ p q s (by rw [hs]; show _ = 1024 * (25 * (t.val / 25) / 25 % 2) + p.val; omega)
  have e2 : ∑ k ∈ Finset.range (t.val % 25 + 1), addend m c (25 * (t.val / 25) + k) (ix2 p q)
      = ∑ v : Fin 32000, hot (tokarr m c (ix2 r 0)) (BitVec.ofNat 32 v.val) * wetarr m c (ix2 v q) := by
    rw [show t.val % 25 + 1 = 25 by omega,
      Finset.sum_congr rfl (fun k hk => (addend_eq m c (25 * (t.val / 25) + k) (by have := Finset.mem_range.mp hk; omega) p q r
        (by rw [hr]; have := Finset.mem_range.mp hk; omega)).trans
        (by rw [show (25 * (t.val / 25) + k) % 25 = k by have := Finset.mem_range.mp hk; omega])),
      sum_range_blocks (term m c r q) 1280 25, show 1280 * 25 = 32000 by norm_num, Finset.sum_range]
    refine Finset.sum_congr rfl fun v _ => ?_
    unfold term
    rw [dif_pos v.isLt]
  rw [e1, e2]

end Cert.KernelIdeal.Embed

end
-- ==== Proof.KernelValue.lean ====
/-
  The idealized kernel's result as one function of the staged arrays.

  Row `r` of the flat 4096 × 1024 result holds, at column `q`, the positional entry `(r % 2048, q)` plus the sum over
  the 32000 vocabulary ids `v` of the one-hot entry (row `r`'s token id against `v`) times the transposed table's entry
  `(v, q)`. Every row tile is written back once, after its last vocabulary tile, and the four row tiles cover the
  array; the host's final reshape reads the flat result as 2 × 2048 × 1024.
-/
import proofs.«422639_j88270167867496_3_alg».proof.Proof.Fold
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.Embed

open Cert.KernelIdeal Cert.KernelIdeal.Gen Cert.Embed

variable (m : (ℓ : Loc nD τ sig) → Buf (Elt Ideal) ℓ) (ρ : Dev nD → PrngReg)

/-- The flat result of a token column, a transposed table and a positional table. -/
def flat (tok : S4096x1.Idx → BitVec 32) (wet : S32000x1024.Idx → EReal) (wp : S2048x1024.Idx → EReal) : S4096x1024.Idx → EReal :=
  fun y => wp (ix2 ⟨(y 0).val % 2048, Nat.mod_lt _ (by decide)⟩ (y 1))
    + ∑ v : Fin 32000, hot (tok (ix2 (y 0) 0)) (BitVec.ofNat 32 v.val) * wet (ix2 v (y 1))

/-- What a writing-back point writes is its block of the flat result. -/
theorem flushed_eq (c : Dev nD) (t : Fin cfg0.N) (hf : (cfg0.win 3).flush t = true) :
    (dats m 0 c).flushed 3 t = ((cfg0.win 3).blk t).view.read (Elt Ideal) (flat (tokarr m c) (wetarr m c) (wparr m c)) := by
  have ht : t.val % 25 = 24 := (flush0_3 t).mp hf
  have hN : t.val < 100 := t_lt t
  show (cfg0.win 3).cut (grid0.coords t) ((dats m 0 c).after 3 t) = _
  rw [after0_3]
  funext y
  have hy0 : (y 0).val < 1024 := (y 0).isLt
  have hrow : 1024 * (t.val / 25) + (y 0).val < 4096 := by omega
  have hemb : ((cfg0.win 3).blk t).view.emb y = ix2 ⟨1024 * (t.val / 25) + (y 0).val, hrow⟩ (y 1) := by
    funext a; apply Fin.ext
    match a with
    | ⟨0, _⟩ => show win0_3.index t 0 * 1024 + 1 * (y 0).val = 1024 * (t.val / 25) + (y 0).val; rw [(grid_facts t).2.2.2.2.2.2.1]; omega
    | ⟨1, _⟩ => show win0_3.index t 1 * 1024 + 1 * (y 1).val = (y 1).val; rw [(grid_facts t).2.2.2.2.2.2.2.1]; omega
  show outsAt0 m c t.val t.isLt y = flat (tokarr m c) (wetarr m c) (wparr m c) (((cfg0.win 3).blk t).view.emb y)
  rw [hemb]
  refine (congrArg (outsAt0 m c t.val t.isLt) (eq_ix2 y)).trans ?_
  exact outs_flush m c t ht (y 0) (y 1) ⟨1024 * (t.val / 25) + (y 0).val, hrow⟩ rfl
    ⟨(1024 * (t.val / 25) + (y 0).val) % 2048, Nat.mod_lt _ (by decide)⟩ (by show (1024 * (t.val / 25) + (y 0).val) % 2048 = _; omega)

/-- An entry of the flat result lies in a point's block when its coordinates lie in the block's ranges. -/
theorem mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row `r` is written back by the last vocabulary tile of row tile `r / 1024`. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hlt : 25 * ((i 0).val / 1024) + 24 < cfg0.N := by rw [show cfg0.N = 100 from N_0]; omega
  refine ⟨⟨25 * ((i 0).val / 1024) + 24, hlt⟩, (flush0_3 _).mpr (by show (25 * ((i 0).val / 1024) + 24) % 25 = 24; omega), ?_⟩
  rw [mem_blk]
  obtain ⟨-, -, -, -, -, -, e0, e1, -⟩ := grid_facts ⟨25 * ((i 0).val / 1024) + 24, hlt⟩
  intro a
  match a with
  | ⟨0, _⟩ =>
    show win0_3.index ⟨25 * ((i 0).val / 1024) + 24, hlt⟩ 0 * 1024 ≤ (i 0).val ∧ (i 0).val < win0_3.index ⟨25 * ((i 0).val / 1024) + 24, hlt⟩ 0 * 1024 + 1024
    rw [e0]; show (25 * ((i 0).val / 1024) + 24) / 25 * 1024 ≤ (i 0).val ∧ (i 0).val < (25 * ((i 0).val / 1024) + 24) / 25 * 1024 + 1024; omega
  | ⟨1, _⟩ =>
    show win0_3.index ⟨25 * ((i 0).val / 1024) + 24, hlt⟩ 1 * 1024 ≤ (i 1).val ∧ (i 1).val < win0_3.index ⟨25 * ((i 0).val / 1024) + 24, hlt⟩ 1 * 1024 + 1024
    rw [e1]; omega

/-- The result array of the pallas_call ends at the flat result. -/
theorem final (c : Dev nD) : (dats m 0 c).arrAt 3 cfg0.N = flat (tokarr m c) (wetarr m c) (wparr m c) :=
  (dats m 0 c).arrAt_eq_of_cover 3 _ (flushed_eq m c) cover

/-- The kernel's result as a function of the three arguments: the flat result of the tokens flattened, the table
    transposed, and the positional table, read as 2 × 2048 × 1024. -/
def result (tok : S2x2048.Idx → BitVec 32) (we : S1024x32000.Idx → EReal) (wp : S2048x1024.Idx → EReal) : S2x2048x1024.Idx → EReal :=
  shapeCast S2x2048x1024
    (flat (shapeCast S4096x1 tok shapeCasts_S2x2048_S4096x1)
      (truncf (F := Ideal) .bf16 (transpose S32000x1024 [1, 0] we transposes_S1024x32000_S32000x1024_1_0) bitsLt_bf16_f32) wp)
    shapeCasts_S4096x1024_S2x2048x1024

/-- The host's reshape after the region reads the final array. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v3)
      = flat (shapeCast S4096x1 (m ((c : Thread nD τ).loc main_arg0)) shapeCasts_S2x2048_S4096x1)
          (truncf (F := Ideal) .bf16 (transpose S32000x1024 [1, 0] (m ((c : Thread nD τ).loc main_arg1)) transposes_S1024x32000_S32000x1024_1_0) bitsLt_bf16_f32)
          (m ((c : Thread nD τ).loc main_arg2)) :=
    (Pipeline.withArrays_arr spec0 launch0.win.arr_inj c _ _ 3).trans
      ((final m c).trans (by rw [tokarr_eq, wetarr_eq, wparr_eq]))
  unfold result
  exact Eq.trans rfl (congrArg (fun x => shapeCast S2x2048x1024 x shapeCasts_S4096x1024_S2x2048x1024) hW)

/-- THE KERNEL'S RUN, READ: every weakly fair execution of the idealized kernel ends with the result buffer at
    `result` of the three arguments, and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Embed

end
-- ==== Proof.RefValue.lean ====
/-
  The idealized reference computes the same function of the three arguments as the idealized kernel.

  At batch `b`, position `s` and channel `e` the reference is the vocabulary sum of one-hot entry (token `(b, s)`
  against `v`) times table entry `(e, v)`, plus the positional entry `(s, e)`. The kernel's result there is the flat
  result at row `2048 · b + s`: the token column's row `2048 · b + s` is token `(b, s)`, the transposed table's entry
  `(v, e)` is the table's `(e, v)`, and the positional row `(2048 · b + s) % 2048` is `s`. The two sides differ only in the
  order of one addition.
-/
import proofs.«422639_j88270167867496_3_alg».proof.Proof.Gen.ReferenceIdeal.Read
import proofs.«422639_j88270167867496_3_alg».proof.Proof.KernelValue

noncomputable section

open Idealize.ShloMosaic Idealize.ShloMosaic.TcCoe Idealize.SL.Sem
open Idealize.ShloMosaic.ValueIdx

namespace Cert.ReferenceIdeal.RefValue

open Cert.ReferenceIdeal Cert.ReferenceIdeal.Read Cert.Embed
open Cert.KernelIdeal.Embed (flat result)

/-- Row `2048 · b + s` of the token column is token `(b, s)`. -/
theorem tokcol_apply (tok : S2x2048.Idx → BitVec 32) (b : Fin 2) (s : Fin 2048) (r : Fin 4096) (hr : r.val = 2048 * b.val + s.val) :
    shapeCast Cert.KernelIdeal.S4096x1 tok Cert.KernelIdeal.Facts₀.shapeCasts_S2x2048_S4096x1 (ix2 r 0) = tok (ix2 b s) :=
  shapeCast_apply tok _ (ix2 r 0) (ix2 b s) (by
    rw [Shape.rowMajor_val_two, Shape.rowMajor_val_two]
    show b.val * 2048 + s.val = r.val * 1 + 0
    omega)

/-- Entry `(v, e)` of the transposed table is the table's entry `(e, v)`. -/
theorem wet_apply (we : S1024x32000.Idx → EReal) (v : Fin 32000) (e : Fin 1024) :
    transpose Cert.KernelIdeal.S32000x1024 [1, 0] we Cert.KernelIdeal.Facts₀.transposes_S1024x32000_S32000x1024_1_0 (ix2 v e) = we (ix2 e v) :=
  transpose_apply _ we _ (ix2 v e) (ix2 e v) (fun b => match b with | ⟨0, _⟩ => rfl | ⟨1, _⟩ => rfl)

/-- THE REFERENCE IS THE KERNEL'S FUNCTION. -/
theorem ref_eq (tok : S2x2048.Idx → BitVec 32) (we : S1024x32000.Idx → EReal) (wp : S2048x1024.Idx → EReal) :
    val_main_v4 (F := Ideal) tok we wp = result tok we wp := by
  funext i
  obtain ⟨b, s, e, rfl⟩ : ∃ (b : Fin 2) (s : Fin 2048) (e : Fin 1024), i = ix3 b s e := ⟨i 0, i 1, i 2, eq_ix3 i⟩
  have hrow : 2048 * b.val + s.val < 4096 := by have := b.isLt; have := s.isLt; omega
  rw [val_main_v4_apply, val_main_v1_apply, val_main_v3_apply, val_main_v2_apply]
  unfold result
  rw [shapeCast_apply _ Cert.KernelIdeal.Facts₀.shapeCasts_S4096x1024_S2x2048x1024 (ix3 b s e) (ix2 ⟨2048 * b.val + s.val, hrow⟩ e) (by
    rw [Shape.rowMajor_val_two, Shape.rowMajor_val_three]
    show (2048 * b.val + s.val) * 1024 + e.val = (b.val * 2048 + s.val) * 1024 + e.val
    omega)]
  unfold flat
  rw [Ideal.addf_def]
  rw [add_comm]
  refine congrArg₂ (· + ·) ?_ ?_
  · refine congrArg wp (funext fun a => ?_)
    match a with
    | ⟨0, _⟩ => exact Fin.ext (by show s.val = (2048 * b.val + s.val) % 2048; omega)
    | ⟨1, _⟩ => rfl
  · refine Finset.sum_congr rfl fun v _ => ?_
    rw [val_main_v0_apply, val_main_call0_v4_apply, val_main_call0_v2_apply, val_main_call0_v0_apply, val_main_call0_v3_apply,
      val_main_call0_v1_apply, hot_of_uitofp, truncf_apply, tokcol_apply tok b s _ rfl, wet_apply]
    have etok : idx_main_call0_v0 (idx_main_call0_v2 (lidx_main_v1 (ix3 b s e) v)) = ix2 b s :=
      funext fun a => Fin.ext (by match a with | ⟨0, _⟩ => rfl | ⟨1, _⟩ => rfl)
    have etab : ridx_main_v1 (ix3 b s e) v = ix2 e v :=
      funext fun a => Fin.ext (by match a with | ⟨0, _⟩ => rfl | ⟨1, _⟩ => rfl)
    rw [etok, etab]

end Cert.ReferenceIdeal.RefValue

end
-- ==== Proof.lean ====
/-
  The certificate of the embedding kernel against its reference: token embedding by a one-hot product plus a
  positional table.

  The kernel flattens the 2 × 2048 tokens to a column of 4096, transposes the 1024 × 32000 embedding table, and runs a
  4 × 25 grid: row tile `i` (1024 rows) by vocabulary tile `k` (1280 ids). Each point multiplies the tile's one-hot rows
  by the tile of the transposed table and adds the product into the output block, which is reset to the positional
  block at `k = 0` and written back after `k = 24`; the result is read as 2 × 2048 × 1024. The reference is
  `one_hot(tokens) · W_eᵀ + W_p`. Over the extended reals both are, at `(b, s, e)`,
  `W_p[s, e] + ∑_v [tokens[b, s] = v] · W_e[e, v]`: the kernel's 25 partial sums of 1280 terms regroup to the whole
  vocabulary sum, which needs only that addition is commutative and associative, so the precondition is never opened.
  The three frames are the generated runs; the idealization rewrote nothing.
-/
import proofs.«422639_j88270167867496_3_alg».proof.Defs
import proofs.«422639_j88270167867496_3_alg».proof.Proof.Gen.Kernel
import proofs.«422639_j88270167867496_3_alg».proof.Proof.Gen.Kernel.Skeleton
import proofs.«422639_j88270167867496_3_alg».proof.Proof.Gen.Kernel.Launch
import proofs.«422639_j88270167867496_3_alg».proof.Proof.Gen.Kernel.Points
import proofs.«422639_j88270167867496_3_alg».proof.Proof.Gen.Kernel.Frame
import proofs.«422639_j88270167867496_3_alg».proof.Proof.Gen.KernelIdeal
import proofs.«422639_j88270167867496_3_alg».proof.Proof.Gen.KernelIdeal.Skeleton
import proofs.«422639_j88270167867496_3_alg».proof.Proof.Gen.KernelIdeal.Launch
import proofs.«422639_j88270167867496_3_alg».proof.Proof.Gen.KernelIdeal.Points
import proofs.«422639_j88270167867496_3_alg».proof.Proof.Gen.KernelIdeal.Frame
import proofs.«422639_j88270167867496_3_alg».proof.Proof.Gen.ReferenceIdeal
import proofs.«422639_j88270167867496_3_alg».proof.Proof.Gen.Pre_finite_inputs
import proofs.«422639_j88270167867496_3_alg».proof.Proof.Gen.ReferenceIdeal.Run
import proofs.«422639_j88270167867496_3_alg».proof.Proof.Gen.ReferenceIdeal.Read
import proofs.«422639_j88270167867496_3_alg».proof.Proof.KernelValue
import proofs.«422639_j88270167867496_3_alg».proof.Proof.RefValue
import Idealize.ShloMosaic.Adequacy
import Idealize.ShloMosaic.Init

noncomputable section

namespace Cert.Proof

open Idealize.ShloMosaic Idealize.SL.Sem Cert.Kernel

/-- The word-level kernel and its idealization run, fault-free, and leave the arguments as launched: the generated frames. -/
theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result buffer ends at `result` of its arguments and the reference's at its
    composed term of arguments that agree with them, which is the same function. -/
theorem algebraic : Cert.algebraic_KernelIdeal_ReferenceIdeal := by
  intro m ρ m' ρ' _ hagree
  refine ⟨fun c => Cert.KernelIdeal.Embed.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
